-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S1x1, .f32⟩
  | .hbm, ⟨5, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v31 : BitVec 1 := Scalar.cmpi .eq arg0 c63_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1 : S1x1.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S1 : Shape := ⟨1, ![1]⟩

abbrev nBuf : Space → Nat
  | .hbm => 29
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .f32⟩
  | .hbm, ⟨8, _⟩ => ⟨S_, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S_, .i32⟩
  | .hbm, ⟨15, _⟩ => ⟨S33554432, .i32⟩
  | .hbm, ⟨16, _⟩ => ⟨S33554432, .i1⟩
  | .hbm, ⟨17, _⟩ => ⟨S_, .i32⟩
  | .hbm, ⟨18, _⟩ => ⟨S33554432, .i32⟩
  | .hbm, ⟨19, _⟩ => ⟨S33554432, .i1⟩
  | .hbm, ⟨20, _⟩ => ⟨S_, .f32⟩
  | .hbm, ⟨21, _⟩ => ⟨S33554432, .f32⟩
  | .hbm, ⟨22, _⟩ => ⟨S33554432, .f32⟩
  | .hbm, ⟨23, _⟩ => ⟨S33554432, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel
  shapeCasts_S_S1 : S_.ShapeCasts S1

variable [Facts₀]

class Facts : Prop extends Facts₀ where

variable [Facts]
-- ==== Proof.HingeCases.lean ====
/-
  What one grid point leaves behind, case by case, as values (at any float instance).

  The body keeps a one-element running total in a scratch cell. At the first point it stores zero there and then
  adds the point's block total to what it reads back; at every later point it adds the block total to what the
  point before left; at the last point it also stores the total divided by the element count into the output
  block. `k0_pay1` is the zero cell, `k0_pay2 x d acc` the cell `acc` plus the block total of scores `x` and labels
  `d`, `k0_pay3 acc` the cell `acc` divided by the count. So:

    first point:   scratch = k0_pay2 x d k0_pay1
    middle points: scratch = k0_pay2 x d (scratch before)
    last point:    scratch = k0_pay2 x d (scratch before),  output = k0_pay3 (that scratch)

  Each is read off the covering stores the body's run found: a whole-cell store read back is its payload, and a
  load of the cell after a whole-cell store reads that store's payload.
-/
import proofs.«173408_j56298431316074_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Hinge

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- A middle point leaves the running total it found plus its block total. -/
theorem scratch_mid (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S4096x128 .f32) (x1 : Vec F S4096x128 .i32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero origin]
  simp only [View.readAt_eq_ld, h1.read_unread, h2.read_unread, h4.read_unread,
    View.ld_unit_zero (S := S4096x128) origin, View.ld_unit_zero (S := S1x1) origin]

/-- The first point leaves zero plus its block total: the reset is overwritten by the update that read it back. -/
theorem scratch_first (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S4096x128 .f32) (x1 : Vec F S4096x128 .i32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin, View.readCov_unit_zero (S := S1x1) _ origin]
  simp only [View.readAt_eq_ld, h1.read_unread, h2.read_unread,
    View.ld_unit_zero (S := S4096x128) origin]

/-- The last point updates the running total like a middle point … -/
theorem scratch_last (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S4096x128 .f32) (x1 : Vec F S4096x128 .i32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero origin]
  simp only [View.readAt_eq_ld, h1.read_unread, h2.read_unread, h4.read_unread,
    View.ld_unit_zero (S := S4096x128) origin, View.ld_unit_zero (S := S1x1) origin]

/-- … and stores that total, divided by the element count, into the output block. -/
theorem out_last (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S4096x128 .f32) (x1 : Vec F S4096x128 .i32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero origin]
  simp only [View.readCov_unit_zero (S := S1x1) _ origin, View.readAt_eq_ld, h1.read_unread, h2.read_unread,
    h4.read_unread, View.ld_unit_zero (S := S4096x128) origin, View.ld_unit_zero (S := S1x1) origin]

end Cert.KernelIdeal.Hinge

end
-- ==== Proof.HingeSum.lean ====
/-
  The arithmetic both programs share, stated without either program.

  One element's contribution to the hinge loss is `term x w`: for a score `x` and an integer label `w`,
  `min 0 (x - 1)` when `w = 1`, `min 0 (-1 - x)` when `w = -1`, and `0` otherwise, on the extended reals.
  The loss is the sum of the contributions over all 33554432 elements divided by 33554432.

  The kernel walks the flat array as 64 blocks of 4096 rows of 128 lanes: element `(t, r, c)` of that walk is
  flat position `t * 524288 + r * 128 + c`. Addition of extended reals is commutative and associative (with
  `⊥` absorbing), so the sum over flat positions is the triple sum over blocks, rows and lanes (`sum_flat`, `total_eq`).
  No finiteness is needed anywhere. `loss` is the result both programs are shown to compute: the triple sum
  divided by the literal `2^25` (the same float word on both sides, so it is never evaluated).
-/
import Idealize.ShloMosaic.PureOps.Ideal
import Idealize.ShloMosaic.Lib.ValueIdx

noncomputable section

open scoped BigOperators

namespace Cert.HingeSum

open Idealize.ShloMosaic

/-- One element's contribution: the branch on the label, each branch a clipped affine function of the score. -/
def term (x : Ideal .f32) (w : BitVec 32) : Ideal .f32 :=
  Scalar.select (IntOp.cmpi .eq w 1#32)
    (min (Ideal.ofBits .f32 0x00000000#32) (x - Ideal.ofBits .f32 0x3F800000#32))
    (Scalar.select (IntOp.cmpi .eq w 4294967295#32)
      (min (Ideal.ofBits .f32 0x00000000#32) (Ideal.ofBits .f32 0xBF800000#32 - x))
      (Ideal.ofBits .f32 0x00000000#32))

/-- Flat position of lane `c` of row `r` of block `t`. -/
def flat (t : Fin 64) (r : Fin 4096) (c : Fin 128) : Fin 33554432 :=
  ⟨t.val * 524288 + r.val * 128 + c.val, by have := t.isLt; have := r.isLt; have := c.isLt; omega⟩

theorem flat_val (t : Fin 64) (r : Fin 4096) (c : Fin 128) : (flat t r c).val = t.val * 524288 + r.val * 128 + c.val := rfl

/-- Block, row and lane determine the flat position and are determined by it (quotient and remainders). -/
def flatEquiv : Fin 64 × Fin 4096 × Fin 128 ≃ Fin 33554432 where
  toFun p := flat p.1 p.2.1 p.2.2
  invFun k := (⟨k.val / 524288, by have := k.isLt; omega⟩, ⟨k.val % 524288 / 128, by omega⟩, ⟨k.val % 128, by omega⟩)
  left_inv p := by
    obtain ⟨t, r, c⟩ := p
    have ht := t.isLt; have hr := r.isLt; have hc := c.isLt
    refine Prod.ext (Fin.ext ?_) (Prod.ext (Fin.ext ?_) (Fin.ext ?_))
    · show (t.val * 524288 + r.val * 128 + c.val) / 524288 = t.val; omega
    · show (t.val * 524288 + r.val * 128 + c.val) % 524288 / 128 = r.val; omega
    · show (t.val * 524288 + r.val * 128 + c.val) % 128 = c.val; omega
  right_inv k := by
    refine Fin.ext ?_
    show k.val / 524288 * 524288 + k.val % 524288 / 128 * 128 + k.val % 128 = k.val
    omega

/-- The sum over flat positions is the sum over blocks of the sum over rows of the sum over lanes. -/
theorem sum_flat {M : Type} [AddCommMonoid M] (g : Fin 33554432 → M) :
    ∑ k, g k = ∑ t : Fin 64, ∑ r : Fin 4096, ∑ c : Fin 128, g (flat t r c) := by
  rw [← Equiv.sum_comp flatEquiv g, Fintype.sum_prod_type]
  refine Finset.sum_congr rfl fun t _ => ?_
  rw [Fintype.sum_prod_type]
  rfl

/-- A rank-1 index set is its one coordinate's range … -/
def idxEquiv1 {n : Nat} : (⟨1, ![n]⟩ : Shape).Idx ≃ Fin n where
  toFun i := i 0
  invFun k := ValueIdx.ix1 k
  left_inv i := (ValueIdx.eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ k : Fin n, f (ValueIdx.ix1 k) := by
  rw [← Equiv.sum_comp (idxEquiv1 (n := n)).symm f]
  rfl

/-- The contributions of all elements of scores `D` and labels `T`, summed block by block, row by row, lane by lane. -/
def total (D : (⟨1, ![33554432]⟩ : Shape).Idx → Ideal .f32) (T : (⟨1, ![33554432]⟩ : Shape).Idx → BitVec 32) : Ideal .f32 :=
  ∑ t : Fin 64, ∑ r : Fin 4096, ∑ c : Fin 128, term (D (ValueIdx.ix1 (flat t r c))) (T (ValueIdx.ix1 (flat t r c)))

/-- The same contributions summed over the flat array in one go. -/
theorem total_eq (D : (⟨1, ![33554432]⟩ : Shape).Idx → Ideal .f32) (T : (⟨1, ![33554432]⟩ : Shape).Idx → BitVec 32) :
    ∑ j, term (D j) (T j) = total D T := by
  rw [sum_idx1, sum_flat]
  rfl

/-- The hinge loss: the total divided by the element count. -/
def loss (D : (⟨1, ![33554432]⟩ : Shape).Idx → Ideal .f32) (T : (⟨1, ![33554432]⟩ : Shape).Idx → BitVec 32) : Ideal .f32 :=
  Ideal.div (total D T) (Ideal.ofBits .f32 0x4C000000#32)

end Cert.HingeSum

end
-- ==== Proof.HingePayload.lean ====
/-
  The body's three stored values read at the ideal instance, at the one index of a one-element cell.

  The reset stores `0`. The update stores `acc + B`, where `B` is the block total: the body forms the contribution
  of every element of the 4096 x 128 block (`Cert.HingeSum.term` of its score and label), sums each row over its 128
  lanes, views the 4096 row sums as a column and sums that column; each lane sum starts from the additive
  neutral, so `B = ∑ r, ∑ c, term (x (r, c)) (d (r, c))` with nothing else added. The last point stores the cell
  divided by the element count `2^25`, kept as the literal both programs divide by.
-/
import proofs.«173408_j56298431316074_1_alg».proof.Proof.Gen.KernelIdeal.Skeleton
import proofs.«173408_j56298431316074_1_alg».proof.Proof.HingeSum
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Hinge

open Cert.KernelIdeal Cert.KernelIdeal.Gen Cert.HingeSum

/-- The one index of a one-element cell. -/
abbrev cell : S1x1.Idx := ix2 (0 : Fin 1) (0 : Fin 1)

/-- A one-element cell has no other index. -/
theorem idx_cell (j : S1x1.Idx) : j = cell := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- The block total of a block of scores `x` and labels `d`: every element's contribution, summed by rows. -/
def blockTotal (x : Vec Ideal S4096x128 .f32) (d : Vec Ideal S4096x128 .i32) : Ideal .f32 :=
  ∑ r : Fin 4096, ∑ c : Fin 128, term (x (ix2 r c)) (d (ix2 r c))

/-- The reset's value is zero. -/
theorem reset_cell : k0_pay1 (F := Ideal) cell = 0 := by
  unfold k0_pay1
  rw [shapeCast_self]
  exact Ideal.ofBits_zero_f32

/-- The update's value is the cell it read plus the block total. -/
theorem update_cell (x : Vec Ideal S4096x128 .f32) (d : Vec Ideal S4096x128 .i32) (acc : Vec Ideal S1x1 .f32) :
    k0_pay2 (F := Ideal) x d acc cell = acc cell + blockTotal x d := by
  unfold k0_pay2
  simp only [shapeCast_self]
  show acc cell + _ = _
  congr 1
  -- the 1 x 1 view of the column sum is the column sum
  refine (shapeCast_apply _ Gen.shapeCasts_S1_S1x1 cell (ix1 (0 : Fin 1)) ?_).trans ?_
  · rw [Shape.rowMajor_val_one, Shape.rowMajor_val_two]; rfl
  -- the column sum is the sum over the rows
  refine (Ideal.multiReduction_add_single _ _ Gen.reduces_S4096x1_S1 _ _ (ix1 (0 : Fin 1))).trans ?_
  unfold blockTotal
  refine Finset.sum_congr rfl fun r _ => ?_
  -- the column's entry `r` is row `r`'s sum
  refine (shapeCast_apply _ Gen.shapeCasts_S4096_S4096x1 _ (ix1 r) ?_).trans ?_
  · rw [Shape.rowMajor_val_one, Shape.rowMajor_val_two]; show r.val = r.val * 1 + 0; omega
  -- row `r`'s sum is the sum over its lanes
  refine (Ideal.multiReduction_add_single _ _ Gen.reduces_S4096x128_S4096 _ _ (ix1 r)).trans ?_
  refine Finset.sum_congr rfl fun c _ => ?_
  have e : Gen.reduces_S4096x128_S4096.lift (ix1 r) c = ix2 r c := by
    funext a
    match a with
    | ⟨0, _⟩ => rfl
    | ⟨1, _⟩ => rfl
  rw [e]
  rfl

/-- The last point's value is the cell divided by the element count. -/
theorem scale_cell (acc : Vec Ideal S1x1 .f32) :
    k0_pay3 (F := Ideal) acc cell = Ideal.div (acc cell) (Ideal.ofBits .f32 0x4C000000#32) := by
  unfold k0_pay3
  rfl

end Cert.KernelIdeal.Hinge

end
-- ==== Proof.HingeRun.lean ====
/-
  The idealized kernel's run, read as a value: its result is the hinge loss of its two argument arrays.

  The flat arrays are viewed as 262144 x 128 before the region; block `t` of that view holds rows
  `4096 t … 4096 t + 4095`, so element `(r, c)` of block `t` is flat position `t * 524288 + r * 128 + c`
  (`score_at`, `label_at`). By induction on the grid point, the scratch cell after point `n` holds the sum of the
  block totals of points `0 … n` (`scratch_after`): the first point starts from zero, every later point adds its
  block total to what the point before left. The last point writes the cell divided by the element count into the
  output block, which is the whole 1 x 1 output array, and the host then views that array as a 1-vector. So the
  result is `Cert.HingeSum.loss` of the arguments at its one index.
-/
import proofs.«173408_j56298431316074_1_alg».proof.Proof.Gen.KernelIdeal.Frame
import proofs.«173408_j56298431316074_1_alg».proof.Proof.HingeCases
import proofs.«173408_j56298431316074_1_alg».proof.Proof.HingePayload
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Hinge

open Cert.KernelIdeal Cert.KernelIdeal.Gen Cert.HingeSum

variable (m : (ℓ : Loc nD τ sig) → Buf (Elt Ideal) ℓ) (ρ : Dev nD → PrngReg)

/-- The argument arrays: scores and labels. -/
abbrev scores (c : Dev nD) : S33554432.Idx → Ideal .f32 := m ((c : Thread nD τ).loc main_arg0)
abbrev labels (c : Dev nD) : S33554432.Idx → BitVec 32 := m ((c : Thread nD τ).loc main_arg1)

/-- The blocks of scores and labels a grid point works on. -/
abbrev xblk (c : Dev nD) (t : Fin cfg0.N) : Vec Ideal S4096x128 .f32 := iblk m c 0 t
abbrev dblk (c : Dev nD) (t : Fin cfg0.N) : Vec Ideal S4096x128 .i32 := iblk m c 1 t

/-- Grid point number `T` as a point of the grid. -/
abbrev pt (T : Fin 64) : Fin cfg0.N := ⟨T.val, by have := T.isLt; have : cfg0.N = 64 := N_0; omega⟩

/-- Both inputs' block at point `t` is block row `t`, block column `0`: decided over the 64 points. -/
theorem blk_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Element `(r, l)` of the score block of point `T` is the score at flat position `flat T r l`. -/
theorem score_at (c : Dev nD) (T : Fin 64) (r : Fin 4096) (l : Fin 128) :
    xblk m c (pt T) (ix2 r l) = scores m c (ix1 (flat T r l)) := by
  obtain ⟨e0, e1, -, -⟩ := blk_index (pt T)
  have e : (V m c main_v0 : S262144x128.Idx → Ideal .f32)
      = shapeCast S262144x128 (m ((c : Thread nD τ).loc main_arg0)) Gen.shapeCasts_S33554432_S262144x128 := by
    show StableHlo.after hostOps0 (fun b => m (c, b)) (Proc.devRef .tc main_v0) = _
    after_results; rfl
  show ((cfg0.win 0).blk (pt T)).view.read (Elt Ideal) (V m c main_v0) (ix2 r l) = _
  rw [View.read_apply, e]
  refine shapeCast_apply _ _ _ (ix1 (flat T r l)) ?_
  rw [Shape.rowMajor_val_one, Shape.rowMajor_val_two]
  show (flat T r l).val = (win0_0.index (pt T) (0 : Fin 2) * 4096 + 1 * r.val) * 128 + (win0_0.index (pt T) (1 : Fin 2) * 128 + 1 * l.val)
  rw [e0, e1, flat_val]
  show _ = (T.val * 4096 + 1 * r.val) * 128 + (0 * 128 + 1 * l.val)
  omega

/-- Element `(r, l)` of the label block of point `T` is the label at flat position `flat T r l`. -/
theorem label_at (c : Dev nD) (T : Fin 64) (r : Fin 4096) (l : Fin 128) :
    dblk m c (pt T) (ix2 r l) = labels m c (ix1 (flat T r l)) := by
  obtain ⟨-, -, e0, e1⟩ := blk_index (pt T)
  have e : (V m c main_v1 : S262144x128.Idx → BitVec 32)
      = shapeCast S262144x128 (m ((c : Thread nD τ).loc main_arg1)) Gen.shapeCasts_S33554432_S262144x128 := by
    show StableHlo.after hostOps0 (fun b => m (c, b)) (Proc.devRef .tc main_v1) = _
    after_results; rfl
  show ((cfg0.win 1).blk (pt T)).view.read (Elt Ideal) (V m c main_v1) (ix2 r l) = _
  rw [View.read_apply, e]
  refine shapeCast_apply _ _ _ (ix1 (flat T r l)) ?_
  rw [Shape.rowMajor_val_one, Shape.rowMajor_val_two]
  show (flat T r l).val = (win0_1.index (pt T) (0 : Fin 2) * 4096 + 1 * r.val) * 128 + (win0_1.index (pt T) (1 : Fin 2) * 128 + 1 * l.val)
  rw [e0, e1, flat_val]
  show _ = (T.val * 4096 + 1 * r.val) * 128 + (0 * 128 + 1 * l.val)
  omega

/-- The block total of grid point `t`. -/
abbrev ptTotal (c : Dev nD) (t : Fin cfg0.N) : Ideal .f32 := blockTotal (xblk m c t) (dblk m c t)

/-- The block totals of all 64 points add up to the total over the flat arrays. -/
theorem sum_ptTotal (c : Dev nD) : ∑ T : Fin 64, ptTotal m c (pt T) = total (scores m c) (labels m c) := by
  unfold total
  refine Finset.sum_congr rfl fun T _ => ?_
  show blockTotal _ _ = _
  unfold blockTotal
  refine Finset.sum_congr rfl fun r _ => Finset.sum_congr rfl fun l _ => ?_
  rw [score_at, label_at]

/-- THE RUNNING TOTAL: after point `n` the scratch cell holds the block totals of points `0 … n`, summed. -/
theorem scratch_after (c : Dev nD) : ∀ (n : ℕ) (h : n < cfg0.N),
    (outsAt0 m c n h).2 cell = ∑ t : Fin (n + 1), ptTotal m c ⟨t.val, by have := t.isLt; omega⟩
  | 0, h => by
    rw [show outsAt0 m c 0 h = outsAt0 m c (⟨0, h⟩ : Fin cfg0.N).val (⟨0, h⟩ : Fin cfg0.N).isLt from rfl,
      outsAt0_A m c ⟨0, h⟩ rfl (by dsimp only; omega)]
    dsimp only
    rw [scratch_first, update_cell, reset_cell, zero_add, Fin.sum_univ_one]
    rfl
  | n + 1, h => by
    have hN : cfg0.N = 64 := N_0
    rw [Fin.sum_univ_castSucc]
    by_cases h63 : (n + 1) % 64 = 63
    · rw [show outsAt0 m c (n + 1) h = outsAt0 m c (⟨n + 1, h⟩ : Fin cfg0.N).val (⟨n + 1, h⟩ : Fin cfg0.N).isLt from rfl,
        outsAt0_C m c ⟨n + 1, h⟩ (by dsimp only; omega) h63]
      dsimp only
      rw [scratch_last, update_cell]
      exact congrArg₂ (· + ·) (scratch_after c n (Nat.lt_of_succ_lt h)) rfl
    · rw [show outsAt0 m c (n + 1) h = outsAt0 m c (⟨n + 1, h⟩ : Fin cfg0.N).val (⟨n + 1, h⟩ : Fin cfg0.N).isLt from rfl,
        outsAt0_B m c ⟨n + 1, h⟩ (by dsimp only; omega) h63]
      dsimp only
      rw [scratch_mid, update_cell]
      exact congrArg₂ (· + ·) (scratch_after c n (Nat.lt_of_succ_lt h)) rfl

/-- At the last point the output block holds the scratch cell divided by the element count. -/
theorem out_scaled (c : Dev nD) (t : Fin cfg0.N) (h0 : ¬t.val % 64 = 0) (h63 : t.val % 64 = 63) :
    (outsAt0 m c t.val t.isLt).1 cell
      = Ideal.div ((outsAt0 m c t.val t.isLt).2 cell) (Ideal.ofBits .f32 0x4C000000#32) := by
  rw [outsAt0_C m c t h0 h63]
  dsimp only
  rw [out_last, scratch_last, scale_cell]

/-- What the kernel leaves in its 1 x 1 output array: the loss, at its one index. -/
abbrev outArr (c : Dev nD) : Buf (Elt Ideal) ((c : Thread nD τ).loc main_v2) := fun _ => loss (scores m c) (labels m c)

/-- The one write-back, at the last point, writes the loss. -/
theorem flushed_out (c : Dev nD) (t : Fin cfg0.N) (hf : (cfg0.win 2).flush t = true) :
    (dats m 0 c).flushed 2 t = ((cfg0.win 2).blk t).view.read (Elt Ideal) (outArr m c) := by
  have hN : cfg0.N = 64 := N_0
  have h63 : t.val % 64 = 63 := (flush0_2 t).mp hf
  funext y
  rw [View.read_apply]
  show (dats m 0 c).after 2 t ((cfg0.win 2).xinj (cfg0.grid.coords t) y) = loss (scores m c) (labels m c)
  rw [after0_2]
  refine (congrArg (outsAt0 m c t.val t.isLt).1 (idx_cell _)).trans ?_
  rw [out_scaled m c t (by omega) h63]
  obtain ⟨n, hn⟩ := t
  obtain rfl : n = 63 := by dsimp only at h63; omega
  rw [scratch_after m c 63 hn]
  unfold loss
  rw [← sum_ptTotal]

/-- The last point's block is the whole 1 x 1 array, so the array ends holding the loss. -/
theorem final_out (c : Dev nD) : (dats m 0 c).arrAt 2 cfg0.N = outArr m c :=
  (dats m 0 c).arrAt_eq_of_cover 2 (outArr m c) (flushed_out m c) fun i =>
    ⟨pt 63, (flush0_2 (pt 63)).mpr rfl, by
      show i ∈ ((View.whole main_v2).slice (win0_2.rect (pt 63))).set
      rw [View.set_slice_whole, Rect.mem_set_unit]
      intro a
      have h0 : (i 0 : Nat) < 1 := (i 0).isLt
      have h1 : (i 1 : Nat) < 1 := (i 1).isLt
      match a with
      | ⟨0, _⟩ =>
        show win0_2.index (pt 63) (0 : Fin 2) * 1 ≤ (i 0 : Nat) ∧ (i 0 : Nat) < win0_2.index (pt 63) (0 : Fin 2) * 1 + 1
        rw [show win0_2.index (pt 63) (0 : Fin 2) = 0 from rfl]; omega
      | ⟨1, _⟩ =>
        show win0_2.index (pt 63) (1 : Fin 2) * 1 ≤ (i 1 : Nat) ∧ (i 1 : Nat) < win0_2.index (pt 63) (1 : Fin 2) * 1 + 1
        rw [show win0_2.index (pt 63) (1 : Fin 2) = 0 from rfl]; omega⟩

/-- The result as the host leaves it: the 1 x 1 array viewed as a 1-vector. -/
abbrev result (c : Dev nD) : Buf (Elt Ideal) ((c : Thread nD τ).loc main_v3) := fun _ => loss (scores m c) (labels m c)

/-- The host's view of the output array after the region is the loss at its one index. -/
theorem tail_result (c : Dev nD) :
    Pipeline.afterTail₀ cfgs (dats m) 0 (V0 m) [hostOps1] c main_v3 = result m c := by
  unfold Pipeline.afterTail₀
  show StableHlo.after hostOps1 _ (Proc.devRef .tc main_v3) = _
  after_results
  rw [Pipeline.withArrays_arr spec0 launch0.win.arr_inj c _ _ 2, final_out]
  rfl

/-- THE RUN, READ: every weakly fair execution of the idealized kernel ends with the result at the loss of the
    arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hinge

end
-- ==== Proof.RefLoss.lean ====
/-
  The idealized reference computes the hinge loss of its two argument arrays.

  Read one operation at a time, the reference's select stage at flat position `j` is the contribution
  `Cert.HingeSum.term` of the score and label at `j` (the same clipped affine branches under the same two label
  tests, the same float words); its sum adds the zero word and every contribution over the flat array, which is the
  block-row-lane total (`Cert.HingeSum.total_eq`); its quotient divides by the same count word; and the final
  reshape of a scalar to a 1-vector reads that scalar at the one index.
-/
import proofs.«173408_j56298431316074_1_alg».proof.Proof.Gen.ReferenceIdeal.Read
import proofs.«173408_j56298431316074_1_alg».proof.Proof.HingeSum
import Idealize.ShloMosaic.Lib.ValueIdx
import Idealize.ShloMosaic.PureOps.Ideal.Laws

noncomputable section

open scoped BigOperators
open Idealize.ShloMosaic Idealize.ShloMosaic.ValueIdx

namespace Cert.ReferenceIdeal.Hinge

open Cert.ReferenceIdeal Cert.ReferenceIdeal.Gen Cert.ReferenceIdeal.Read Cert.HingeSum

/-- The select stage at a flat position is that element's contribution. -/
theorem contrib_apply (D : (⟨S33554432, .f32⟩ : BufTy).Contents (Elt Ideal)) (T : (⟨S33554432, .i32⟩ : BufTy).Contents (Elt Ideal))
    (j : S33554432.Idx) : val_main_v13 (F := Ideal) D T j = term (D j) (T j) := by
  simp only [val_main_v13_apply, val_main_v12_apply, val_main_v11_apply, val_main_v10_apply, val_main_c_3_apply,
    val_main_v9_apply, val_main_v8_apply, val_main_c_apply, val_main_v7_apply, val_main_v6_apply, val_main_cst_2_apply,
    val_main_v5_apply, val_main_v4_apply, val_main_cst_1_apply, val_main_v3_apply, val_main_v2_apply, val_main_cst_0_apply,
    val_main_v1_apply, val_main_v0_apply, val_main_cst_apply, val_main_call0_v0_apply, val_main_cst_4_apply]
  rfl

/-- The quotient stage, at the scalar's one index, is the loss. -/
theorem quotient_apply (D : (⟨S33554432, .f32⟩ : BufTy).Contents (Elt Ideal)) (T : (⟨S33554432, .i32⟩ : BufTy).Contents (Elt Ideal))
    (k : S_.Idx) : val_main_v15 (F := Ideal) D T k = loss D T := by
  rw [val_main_v15_apply, val_main_v14_apply, val_main_cst_5_apply, val_main_cst_6_apply]
  simp only [contrib_apply]
  rw [total_eq]
  show Ideal.div (Ideal.ofBits .f32 0x00000000#32 + total D T) (Ideal.ofBits .f32 0x4C000000#32) = _
  rw [Ideal.ofBits_zero_f32, zero_add]
  rfl

/-- THE REFERENCE'S RESULT is the loss of its arguments, at its one index. -/
theorem result_eq (D : (⟨S33554432, .f32⟩ : BufTy).Contents (Elt Ideal)) (T : (⟨S33554432, .i32⟩ : BufTy).Contents (Elt Ideal)) :
    val_main_v16 (F := Ideal) D T = fun _ => loss D T := by
  funext j
  unfold val_main_v16 shapeCast
  exact quotient_apply D T _

end Cert.ReferenceIdeal.Hinge

end
-- ==== Proof.lean ====
/-
  The certificate of a hinge-loss kernel against its array-library reference.

  Both programs take 33554432 scores and as many integer labels and return one number: the sum, over all elements,
  of `min 0 (x - 1)` where the label is `1`, of `min 0 (-1 - x)` where it is `-1`, and of `0` elsewhere, divided by
  33554432 (`Cert.HingeSum.loss`). The reference sums the flat array in one reduction. The kernel views the array as
  262144 x 128, walks it in 64 blocks of 4096 rows, sums each block by lanes and then by rows, keeps a running total
  in a one-element scratch cell across the grid, and divides at the last point.

  Over the extended reals the two are equal because addition is commutative and associative there, infinities
  included: the flat sum is the sum over blocks, rows and lanes (`Cert.HingeSum.sum_flat`), and the running total
  after the last point is the sum of the 64 block totals (`Cert.KernelIdeal.Hinge.scratch_after`). Both sides divide
  by the same float word, so the word is never evaluated, and the precondition (finite scores) is not used.

  The frames of the two kernel programs are the generated ones; the reference's frame is its generated run with
  the result dropped; the idealization rewrote nothing, so `preserves` is trivial.
-/
import proofs.«173408_j56298431316074_1_alg».proof.Defs
import proofs.«173408_j56298431316074_1_alg».proof.Proof.Gen.Kernel
import proofs.«173408_j56298431316074_1_alg».proof.Proof.Gen.Kernel.Frame
import proofs.«173408_j56298431316074_1_alg».proof.Proof.Gen.KernelIdeal
import proofs.«173408_j56298431316074_1_alg».proof.Proof.Gen.KernelIdeal.Frame
import proofs.«173408_j56298431316074_1_alg».proof.Proof.Gen.ReferenceIdeal
import proofs.«173408_j56298431316074_1_alg».proof.Proof.Gen.ReferenceIdeal.Run
import proofs.«173408_j56298431316074_1_alg».proof.Proof.Gen.ReferenceIdeal.Read
import proofs.«173408_j56298431316074_1_alg».proof.Proof.Gen.Pre_finite_inputs
import proofs.«173408_j56298431316074_1_alg».proof.Proof.HingeRun
import proofs.«173408_j56298431316074_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with what it says of the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on scores and labels, both idealized programs end with the loss of those arrays at the
    result's one index: the kernel by its run read as a value, the reference by its stages read one at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hinge.result m c, Cert.KernelIdeal.Hinge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Hinge.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
